-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩
abbrev S2000x64 : Shape := ⟨2, ![2000, 64]⟩

abbrev nBuf : Space → Nat
  | .hbm => 61
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000x64, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v43) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000x64, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S50000x64, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Projection.lean ====
/-
  The dense layer that ends the network, as one function of its three operands.

  X is the node-feature matrix (50000 nodes, 64 features) the two propagation rounds leave, W the 64×64 weight matrix
  and b the bias vector of 64 entries. Entry (r, h) of the layer's result is

      Σ_l X(r, l) · W(l, h) + b(h),

  a sum of 64 products on the extended reals followed by one addition. Nothing here depends on how the result is
  computed: a row tile of the product reads only rows of X inside the tile, so the tiles of any row tiling are
  restrictions of this one function.
-/
import Idealize.ShloMosaic.PureOps.Ideal.Laws
import Idealize.ShloMosaic.Lib.ValueIdx

noncomputable section

namespace Cert.Projection

open Idealize.ShloMosaic Idealize.ShloMosaic.ValueIdx

/-- Entry (r, h) of X · W + b. -/
def entry (X : FVec Ideal ⟨2, ![50000, 64]⟩ .f32) (W : FVec Ideal ⟨2, ![64, 64]⟩ .f32) (b : FVec Ideal ⟨1, ![64]⟩ .f32)
    (r : Fin 50000) (h : Fin 64) : EReal :=
  (∑ l : Fin 64, X (ix2 r l) * W (ix2 l h)) + b (ix1 h)

/-- X · W + b as an array of 50000 × 64 extended reals. -/
def project (X : FVec Ideal ⟨2, ![50000, 64]⟩ .f32) (W : FVec Ideal ⟨2, ![64, 64]⟩ .f32) (b : FVec Ideal ⟨1, ![64]⟩ .f32) :
    FVec Ideal ⟨2, ![50000, 64]⟩ .f32 :=
  fun i => entry X W b (i 0) (i 1)

theorem project_apply (X : FVec Ideal ⟨2, ![50000, 64]⟩ .f32) (W : FVec Ideal ⟨2, ![64, 64]⟩ .f32)
    (b : FVec Ideal ⟨1, ![64]⟩ .f32) (r : Fin 50000) (h : Fin 64) :
    project X W b (ix2 r h) = (∑ l : Fin 64, X (ix2 r l) * W (ix2 l h)) + b (ix1 h) := rfl

end Cert.Projection

end
-- ==== Proof.ReferenceProjection.lean ====
/-
  The reference's result is the dense layer of the propagated features.

  After its two propagation rounds the reference holds a 50000 × 64 matrix X (the stage the generated reading of the
  reference names for the second scatter-add). Its last four operations are the matrix product X · W, the bias vector
  laid out as one row, that row repeated down the 50000 rows, and the sum of the two arrays. Read at an entry (r, h):
  the product contracts X's second axis with W's first, so it is Σ_l X(r, l) · W(l, h); the repeated row reads b(h).
  That is the specification's entry, with X never opened.
-/
import proofs.«130688_j12584254177709_1_alg».proof.Proof.Gen.ReferenceIdeal.Read
import proofs.«130688_j12584254177709_1_alg».proof.Proof.Projection

noncomputable section

namespace Cert.ReferenceIdeal.Dense

open Cert.ReferenceIdeal Cert.ReferenceIdeal.Gen Cert.ReferenceIdeal.Read
open Idealize.ShloMosaic Idealize.ShloMosaic.ValueIdx

/-- The product reads its left operand at row r, column l. -/
theorem left_index (i : S50000x64.Idx) (l : Fin 64) : lidx_main_v44 i l = ix2 (i 0) l :=
  funext fun a => by match a with | ⟨0, _⟩ => rfl | ⟨1, _⟩ => rfl

/-- The product reads its right operand at row l, column h. -/
theorem right_index (i : S50000x64.Idx) (l : Fin 64) : ridx_main_v44 i l = ix2 l (i 1) :=
  funext fun a => by match a with | ⟨0, _⟩ => rfl | ⟨1, _⟩ => rfl

/-- The bias, laid out as a row and repeated down the rows, is read at the entry's column. -/
theorem bias_index (i : S50000x64.Idx) : idx_main_v45 (idx_main_v46 i) = ix1 (i 1) :=
  funext fun a => by match a with | ⟨0, _⟩ => rfl

/-- The reference's result is X · W + b, X being what its two propagation rounds leave. -/
theorem result_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal))
    (x4 : (⟨S64, .f32⟩ : BufTy).Contents (Elt Ideal)) :
    val_main_v47 (F := Ideal) x0 x1 x2 x3 x4 = Cert.Projection.project (val_main_v43 (F := Ideal) x0 x1 x2) x3 x4 := by
  funext i
  rw [val_main_v47_apply, val_main_v44_apply, val_main_v46_apply, val_main_v45_apply]
  simp only [left_index, right_index, bias_index]
  rfl

end Cert.ReferenceIdeal.Dense

end
-- ==== Proof.PropagatedInput.lean ====
/-
  What the kernel's three input windows hold when the dense-layer region is entered.

  Before its one region the kernel's host program runs the two propagation rounds — per round: wrap the negative
  source and destination index words by the node count, gather the source rows, scale each by its edge weight,
  scatter-add into the destination rows of a zero matrix — and then casts the bias vector to one row. These are,
  operation for operation, the operations the reference starts with. So the array the first window stages is the
  reference's propagated matrix of the same three arguments: the two composed terms are one term. It is named
  by the stage the generated reading of the reference gives the second scatter-add, and never opened.
  The second window stages the weight matrix as launched; the third the bias vector cast to a row.
-/
import proofs.«130688_j12584254177709_1_alg».proof.Proof.Gen.KernelIdeal.Frame
import proofs.«130688_j12584254177709_1_alg».proof.Proof.Gen.ReferenceIdeal.Read
import Idealize.ShloMosaic.Lib.StableHlo.Run

noncomputable section

namespace Cert.KernelIdeal.Input

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 2000000 in
/-- The first window's array: the features after two propagation rounds, the reference's own stage of the
    launched features, edge list and edge weights. -/
theorem features_eq (c : Dev nD) :
    (V m c main_v43 : S50000x64.Idx → Elt F .f32)
      = Cert.ReferenceIdeal.Read.val_main_v43 (F := F) (m ((c : Thread nD τ).loc main_arg0))
          (m ((c : Thread nD τ).loc main_arg1)) (m ((c : Thread nD τ).loc main_arg2)) := by
  dsimp only [V, hostOps0]
  after_results_simp
  rfl

set_option maxRecDepth 16384 in
set_option maxHeartbeats 2000000 in
/-- The third window's array: the bias vector cast to one row. -/
theorem bias_row_eq (c : Dev nD) :
    (V m c main_v44 : S1x64.Idx → Elt F .f32)
      = shapeCast S1x64 (m ((c : Thread nD τ).loc main_arg4)) shapeCasts_S64_S1x64 := by
  dsimp only [V, hostOps0]
  after_results_simp
  rfl

end Cert.KernelIdeal.Input

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelProjection.lean ====
/-
  The kernel's result array is the dense layer of the propagated features.

  The region runs over 25 grid points. At point t the body loads rows 2000·t … 2000·t + 1999 of the propagated
  feature matrix X, the whole weight matrix W and the bias row, and stores one tile: the product of the X rows with
  W (both operands narrowed to bf16 first, which at the ideal values changes nothing; the accumulator starts at zero)
  plus the bias row repeated down the 2000 rows. Entry (p, h) of the tile is therefore

      Σ_l X(2000·t + p, l) · W(l, h) + b(h),

  which is entry (2000·t + p, h) of X · W + b: every tile is a restriction of the one specified function. The 25 row
  tiles are disjoint and together cover all 50000 rows (row r lies in tile r / 2000), so after the run the result
  array holds X · W + b everywhere.
-/
import proofs.«130688_j12584254177709_1_alg».proof.Proof.Gen.KernelIdeal.Value
import proofs.«130688_j12584254177709_1_alg».proof.Proof.PropagatedInput
import proofs.«130688_j12584254177709_1_alg».proof.Proof.Projection
import proofs.«130688_j12584254177709_1_alg».proof.Proof.LibDenseLayer
import Idealize.ShloMosaic.Lib.Pipeline.Value
import Idealize.ShloMosaic.Lib.ValueLayout
import Idealize.ShloMosaic.Lib.Tactic

noncomputable section

namespace Cert.KernelIdeal.Dense

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Projection (project project_apply)

variable (m : (ℓ : Loc nD τ sig) → Buf (Elt Ideal) ℓ) (ρ : Dev nD → PrngReg)

theorem zero_offsets : (![0, 0] : Fin 2 → Nat) = fun _ => 0 := funext fun a => by fin_cases a <;> rfl

/-! ## One tile of the body -/

/-- The body's stored value at entry (p, h) of its tile, from the three blocks it loads: the row of the first
    block times the column of the second, plus the bias row's entry. -/
theorem tile_apply (x0 : Vec Ideal S2000x64 .f32) (x1 : Vec Ideal S64x64 .f32) (x2 : Vec Ideal S1x64 .f32)
    (p : Fin 2000) (h : Fin 64) :
    k0_pay1 (F := Ideal) x0 x1 x2 (ix2 p h)
      = (∑ l : Fin 64, x0 (ix2 p l) * x1 (ix2 l h)) + x2 (ix2 (0 : Fin 1) h) := by
  unfold k0_pay1
  refine (ValueIdx.addf_apply _ _ _).trans ?_
  refine congrArg₂ (· + ·) ?_ ?_
  · refine (DenseLayer.matmul_rows_apply Facts₀.dot_S2000x64_S64x64_S2000x64_1_0_0_1_n_n_wf none _ _ p h).trans ?_
    refine Finset.sum_congr rfl fun l _ => ?_
    refine congrArg₂ (· * ·) ?_ rfl
    exact congrFun (shapeCast_self x0 Facts₀.shapeCasts_S2000x64_S2000x64) (ix2 p l)
  · refine (broadcastTo_1b_ab_apply _ Facts₀.broadcasts_S1x64_S2000x64 p h).trans ?_
    exact congrFun (shapeCast_self x2 Facts₀.shapeCasts_S1x64_S1x64) (ix2 (0 : Fin 1) h)

/-! ## Where each window's block sits in its array -/

/-- The printed index maps over the 25 grid points: the feature and result windows move down one tile per point, the
    weight and bias windows stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! The reads below are stated for ANY array of the window's type: which entries of the array a block holds depends
    on the index maps alone, never on what the array contains. -/

/-- Point t's block of a 50000 × 64 array under the first window is its rows 2000·t … 2000·t + 1999. -/
theorem rows_read (X : S50000x64.Idx → Elt Ideal .f32) (t : Fin cfg0.N) (p : Fin 2000) (l : Fin 64) (r : Fin 50000)
    (hr : r.val = 2000 * t.val + p.val) :
    (((cfg0.win 0).blk t).view.read (Elt Ideal) X : S2000x64.Idx → Elt Ideal .f32) (ix2 p l) = X (ix2 r l) := by
  obtain ⟨e0, e1, -⟩ := block_indices t
  rw [View.read_apply]
  show X _ = X _
  refine congrArg X (funext fun a => Fin.ext ?_)
  match a with
  | ⟨0, _⟩ => show win0_0.index t (0 : Fin 2) * 2000 + 1 * p.val = r.val; rw [e0, hr]; omega
  | ⟨1, _⟩ => show win0_0.index t (1 : Fin 2) * 64 + 1 * l.val = l.val; rw [e1]; omega

/-- Every point's block of a 64 × 64 array under the second window is the whole array. -/
theorem whole_read (X : S64x64.Idx → Elt Ideal .f32) (t : Fin cfg0.N) (l h : Fin 64) :
    (((cfg0.win 1).blk t).view.read (Elt Ideal) X : S64x64.Idx → Elt Ideal .f32) (ix2 l h) = X (ix2 l h) := by
  obtain ⟨-, -, e2, e3, -⟩ := block_indices t
  rw [View.read_apply]
  show X _ = X _
  refine congrArg X (funext fun a => Fin.ext ?_)
  match a with
  | ⟨0, _⟩ => show win0_1.index t (0 : Fin 2) * 64 + 1 * l.val = l.val; rw [e2]; omega
  | ⟨1, _⟩ => show win0_1.index t (1 : Fin 2) * 64 + 1 * h.val = h.val; rw [e3]; omega

/-- Every point's block of a 1 × 64 array under the third window is its one row. -/
theorem row_read (X : S1x64.Idx → Elt Ideal .f32) (t : Fin cfg0.N) (h : Fin 64) :
    (((cfg0.win 2).blk t).view.read (Elt Ideal) X : S1x64.Idx → Elt Ideal .f32) (ix2 (0 : Fin 1) h) = X (ix2 (0 : Fin 1) h) := by
  obtain ⟨-, -, -, -, e4, e5, -⟩ := block_indices t
  rw [View.read_apply]
  show X _ = X _
  refine congrArg X (funext fun a => Fin.ext ?_)
  match a with
  | ⟨0, _⟩ => show win0_2.index t (0 : Fin 2) * 1 + 1 * 0 = 0; rw [e4]
  | ⟨1, _⟩ => show win0_2.index t (1 : Fin 2) * 64 + 1 * h.val = h.val; rw [e5]; omega

/-- What point t writes back of a tile Y is the read, through the result window's block, of any 50000 × 64 array G that
    agrees with Y entry by entry: tile entry (p, h) against array entry (2000·t + p, h). -/
theorem tile_read (Y : S2000x64.Idx → Elt Ideal .f32) (G : S50000x64.Idx → Elt Ideal .f32) (t : Fin cfg0.N)
    (hYG : ∀ (j : S2000x64.Idx) (i : S50000x64.Idx), (i 0).val = 2000 * t.val + (j 0).val → (i 1).val = (j 1).val → Y j = G i) :
    (cfg0.win 3).cut (grid0.coords t) Y = ((cfg0.win 3).blk t).view.read (Elt Ideal) G := by
  obtain ⟨-, -, -, -, -, -, e6, e7⟩ := block_indices t
  funext j
  show Y j = G (((cfg0.win 3).blk t).view.emb j)
  refine hYG j _ ?_ ?_
  · show win0_3.index t (0 : Fin 2) * 2000 + 1 * (j 0).val = 2000 * t.val + (j 0).val
    rw [e6]; omega
  · show win0_3.index t (1 : Fin 2) * 64 + 1 * (j 1).val = (j 1).val
    rw [e7]; omega

/-- The first window's block at point t is rows 2000·t … 2000·t + 1999 of the propagated features. -/
theorem features_block (c : Dev nD) (t : Fin cfg0.N) (p : Fin 2000) (l : Fin 64) (r : Fin 50000)
    (hr : r.val = 2000 * t.val + p.val) :
    (iblk m c 0 t : Vec Ideal S2000x64 .f32) (ix2 p l) = (V m c main_v43 : S50000x64.Idx → Elt Ideal .f32) (ix2 r l) := by
  unfold iblk
  exact rows_read (V m c main_v43) t p l r hr

/-- The second window's block at every point is the whole weight matrix. -/
theorem weights_block (c : Dev nD) (t : Fin cfg0.N) (l h : Fin 64) :
    (iblk m c 1 t : Vec Ideal S64x64 .f32) (ix2 l h) = (V m c main_arg3 : S64x64.Idx → Elt Ideal .f32) (ix2 l h) := by
  unfold iblk
  exact whole_read (V m c main_arg3) t l h

/-- The third window's block at every point is the bias vector laid out as a row. -/
theorem bias_block (c : Dev nD) (t : Fin cfg0.N) (h : Fin 64) :
    (iblk m c 2 t : Vec Ideal S1x64 .f32) (ix2 (0 : Fin 1) h)
      = (m ((c : Thread nD τ).loc main_arg4) : S64.Idx → Elt Ideal .f32) (ix1 h) := by
  unfold iblk
  refine (row_read (V m c main_v44) t h).trans ?_
  rw [Cert.KernelIdeal.Input.bias_row_eq m c]
  exact shapeCast_a_1a_apply (m ((c : Thread nD τ).loc main_arg4)) Facts₀.shapeCasts_S64_S1x64 (0 : Fin 1) h

/-! ## Every tile is a restriction of X · W + b -/

/-- The body's value at entry j of the tile of point t is X · W + b at the array entry i in row 2000·t + (j's row),
    same column. -/
theorem tile_entry (c : Dev nD) (t : Fin cfg0.N) (j : S2000x64.Idx) (i : S50000x64.Idx)
    (h0 : (i 0).val = 2000 * t.val + (j 0).val) (h1 : (i 1).val = (j 1).val) :
    k0_pay1 (F := Ideal) (iblk m c 0 t) (iblk m c 1 t) (iblk m c 2 t) j
      = project (V m c main_v43) (V m c main_arg3) (m ((c : Thread nD τ).loc main_arg4)) i := by
  obtain ⟨p, q, rfl⟩ : ∃ (p : Fin 2000) (q : Fin 64), j = ix2 p q := ⟨j 0, j 1, eq_ix2 j⟩
  obtain ⟨r, h, rfl⟩ : ∃ (r : Fin 50000) (h : Fin 64), i = ix2 r h := ⟨i 0, i 1, eq_ix2 i⟩
  obtain rfl : h = q := Fin.ext h1
  refine (tile_apply (iblk m c 0 t) (iblk m c 1 t) (iblk m c 2 t) p h).trans ?_
  rw [project_apply]
  refine congrArg₂ (· + ·) (Finset.sum_congr rfl fun l _ => ?_) (bias_block m c t h)
  exact congrArg₂ (· * ·) (features_block m c t p l r h0) (weights_block m c t l h)

/-- What point t writes back is tile t of X · W + b. -/
theorem flushed_eq (c : Dev nD) (t : Fin cfg0.N) :
    (dats m 0 c).flushed 3 t = ((cfg0.win 3).blk t).view.read (Elt Ideal)
      (project (V m c main_v43) (V m c main_arg3) (m ((c : Thread nD τ).loc main_arg4))) := by
  rw [flushed3]
  unfold out0_3
  rw [View.canon_unit_zero zero_offsets]
  simp only [View.ld_unit_zero (S := S2000x64) zero_offsets, View.ld_unit_zero (S := S64x64) zero_offsets,
    View.ld_unit_zero (S := S1x64) zero_offsets]
  exact tile_read _ _ t (fun j i h0 h1 => tile_entry m c t j i h0 h1)

/-! ## The tiles cover the array -/

/-- An entry of the result array is in point t's tile iff each coordinate is in the tile's range on its axis. -/
theorem mem_tile (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v45).slice (win0_3.rect t)).set ↔ _
  rw [View.set_slice_whole, Rect.mem_set_unit]
  exact Iff.rfl

/-- Row r of the result lies in the tile of point r / 2000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := block_indices t
  refine ⟨t, flush0_3 t, ?_⟩
  rw [mem_tile]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 64 ≤ (i 1).val ∧ (i 1).val < win0_3.index t (1 : Fin 2) * 64 + 64
    rw [e7]; omega

/-! ## The result array, and the run -/

/-- After the run the result array is X · W + b, X the propagated features of the launched arguments. -/
theorem final (c : Dev nD) :
    (dats m 0 c).arrAt 3 cfg0.N
      = project (Cert.ReferenceIdeal.Read.val_main_v43 (F := Ideal) (m ((c : Thread nD τ).loc main_arg0))
          (m ((c : Thread nD τ).loc main_arg1)) (m ((c : Thread nD τ).loc main_arg2)))
        (m ((c : Thread nD τ).loc main_arg3)) (m ((c : Thread nD τ).loc main_arg4)) := by
  rw [← Cert.KernelIdeal.Input.features_eq m c, ← V_main_arg3 m c]
  exact (dats m 0 c).arrAt_eq_of_cover 3 _ (fun t _ => flushed_eq m c t) covered

/-- Every weakly fair execution of the kernel's program terminates with the result array at X · W + b and the
    arguments as launched. -/
theorem run : θ_run defs (onTc (τ := τ) (main (F := Ideal))) ⟨m, fun _ => 0, ρ⟩ fun r => ∀ c : Dev nD,
      r.2.mem ((c : Thread nD τ).loc main_v45)
        = project (Cert.ReferenceIdeal.Read.val_main_v43 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Dense

end
-- ==== Proof.lean ====
/-
  Two rounds of message passing on a graph followed by a dense layer, computed two ways, give the same array.

  Both programs start from node features x (50000 × 64), an edge list (2 × 800000 index words), edge weights and the
  layer's parameters W (64 × 64) and b (64). Both run, on the host and operation for operation alike, two rounds of
  propagation: every edge gathers its source node's feature row, scales it by the edge's weight, and adds it into
  its destination node's row of a zero matrix. Call the result X. The reference then forms X · W + b by one matrix
  product and a broadcast sum. The kernel forms it tile by tile: 25 grid points, each multiplying 2000 rows of X by W
  on operands narrowed to bf16 with an f32 accumulator started at zero, and adding the bias row.

  Read on the extended reals, narrowing a float is the identity and a product into a zero accumulator is the plain sum
  of products, so each tile's entry (p, h) is Σ_l X(2000·t + p, l) · W(l, h) + b(h), the entry of X · W + b it
  overwrites; the tiles cover every row. No law beyond the definitions of the two sums is used, so finiteness of the
  inputs is never needed for the values. X itself is the same term of the arguments in both programs and is never
  opened.

  The three frames are the generated ones (the reference's is its generated run with the value dropped); the
  idealization rewrote nothing, so its conjunct is trivial.
-/
import proofs.«130688_j12584254177709_1_alg».proof.Defs
import proofs.«130688_j12584254177709_1_alg».proof.Proof.Gen.Kernel
import proofs.«130688_j12584254177709_1_alg».proof.Proof.Gen.Kernel.Skeleton
import proofs.«130688_j12584254177709_1_alg».proof.Proof.Gen.Kernel.Launch
import proofs.«130688_j12584254177709_1_alg».proof.Proof.Gen.Kernel.Points
import proofs.«130688_j12584254177709_1_alg».proof.Proof.Gen.Kernel.Frame
import proofs.«130688_j12584254177709_1_alg».proof.Proof.Gen.KernelIdeal
import proofs.«130688_j12584254177709_1_alg».proof.Proof.Gen.KernelIdeal.Skeleton
import proofs.«130688_j12584254177709_1_alg».proof.Proof.Gen.KernelIdeal.Launch
import proofs.«130688_j12584254177709_1_alg».proof.Proof.Gen.KernelIdeal.Points
import proofs.«130688_j12584254177709_1_alg».proof.Proof.Gen.KernelIdeal.Frame
import proofs.«130688_j12584254177709_1_alg».proof.Proof.Gen.ReferenceIdeal
import proofs.«130688_j12584254177709_1_alg».proof.Proof.Gen.Pre_finite_inputs
import proofs.«130688_j12584254177709_1_alg».proof.Proof.Gen.KernelIdeal.Value
import proofs.«130688_j12584254177709_1_alg».proof.Proof.Gen.ReferenceIdeal.Run
import proofs.«130688_j12584254177709_1_alg».proof.Proof.Gen.ReferenceIdeal.Read
import proofs.«130688_j12584254177709_1_alg».proof.Proof.ReferenceProjection
import proofs.«130688_j12584254177709_1_alg».proof.Proof.KernelProjection
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both X · W + b of the same
    propagated features X. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v47_eq _ _ _ _ _).trans (Cert.ReferenceIdeal.Dense.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
